-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_cst) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S1x512 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_v33

def fn {F : FTy → Type} [FloatOps F] (main_arg0 : FVec F S512x128 .f32) (main_arg1 : FVec F S512x128 .f32) (main_arg2 : FVec F S512x256 .f32) (main_arg3 : FVec F S512 .f32) (main_arg4 : FVec F S512x512 .f32) (main_arg5 : FVec F S512 .f32) (main_arg6 : FVec F S1x512 .f32) (main_arg7 : FVec F S1 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S512x128 : Shape := ⟨2, ![512, 128]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S128x128 : Shape := ⟨2, ![128, 128]⟩
abbrev S32x128 : Shape := ⟨2, ![32, 128]⟩
abbrev S128x512 : Shape := ⟨2, ![128, 512]⟩
abbrev S32x512 : Shape := ⟨2, ![32, 512]⟩
abbrev S1x1x512 : Shape := ⟨3, ![1, 1, 512]⟩
abbrev S32x1x512 : Shape := ⟨3, ![32, 1, 512]⟩
abbrev S1x128x512 : Shape := ⟨3, ![1, 128, 512]⟩
abbrev S32x128x512 : Shape := ⟨3, ![32, 128, 512]⟩
abbrev S4096x512 : Shape := ⟨2, ![4096, 512]⟩
abbrev S1x1 : Shape := ⟨2, ![1, 1]⟩
abbrev S512x1 : Shape := ⟨2, ![512, 1]⟩
abbrev S4096x1 : Shape := ⟨2, ![4096, 1]⟩
abbrev S_ : Shape := ⟨0, ![]⟩

abbrev nBuf : Space → Nat
  | .hbm => 12
  | .vmem => 13
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x256, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S512x128, .f32⟩
  | .hbm, ⟨9, _⟩ => ⟨S512x128, .f32⟩
  | .hbm, ⟨10, _⟩ => ⟨S512x512, .f32⟩
  | .hbm, ⟨11, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S32x128, .f32⟩
  | .local _ .vmem, ⟨3, _⟩ => ⟨S32x128, .f32⟩
  | .local _ .vmem, ⟨4, _⟩ => ⟨S512x128, .f32⟩
  | .local _ .vmem, ⟨5, _⟩ => ⟨S512x128, .f32⟩
  | .local _ .vmem, ⟨6, _⟩ => ⟨S512, .f32⟩
  | .local _ .vmem, ⟨7, _⟩ => ⟨S512x512, .f32⟩
  | .local _ .vmem, ⟨8, _⟩ => ⟨S512, .f32⟩
  | .local _ .vmem, ⟨9, _⟩ => ⟨S1x512, .f32⟩
  | .local _ .vmem, ⟨10, _⟩ => ⟨S1, .f32⟩
  | .local _ .vmem, ⟨11, _⟩ => ⟨S32x128, .f32⟩
  | .local _ .vmem, ⟨12, _⟩ => ⟨S32x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S512x256_S512x128_0_0 : S512x256.Slices ![0, 0] S512x128
  slices_S512x256_S512x128_0_128 : S512x256.Slices ![0, 128] S512x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  inb_S512_S512_0 : ∀ a, (![0] : Fin 1 → Nat) a + S512.size a ≤ S512.size a
  h_S512 : 0 < S512.numel
  shapeCasts_S512_S1x1x512 : S512.ShapeCasts S1x1x512
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  broadcasts_S1x1x512_S32x128x512 : S1x1x512.Broadcasts S32x128x512
  shapeCasts_S32x128x512_S4096x512 : S32x128x512.ShapeCasts S4096x512
  inb_S512x512_S512x512_0_0 : ∀ a, (![0, 0] : Fin 2 → Nat) a + S512x512.size a ≤ S512x512.size a
  h_S512x512 : 0 < S512x512.numel
  shapeCasts_S512_S1x512 : S512.ShapeCasts S1x512
  transposes_S512x512_p1_0_S512x512 : S512x512.Transposes [1, 0] S512x512
  broadcasts_S1x512_S4096x512 : S1x512.Broadcasts S4096x512
  inb_S1x512_S1x512_0_0 : ∀ a, (![0, 0] : Fin 2 → Nat) a + S1x512.size a ≤ S1x512.size a
  h_S1x512 : 0 < S1x512.numel
  inb_S1_S1_0 : ∀ a, (![0] : Fin 1 → Nat) a + S1.size a ≤ S1.size a
  h_S1 : 0 < S1.numel
  shapeCasts_S1_S1x1 : S1.ShapeCasts S1x1
  transposes_S1x512_p1_0_S512x1 : S1x512.Transposes [1, 0] S512x1
  broadcasts_S1x1_S4096x1 : S1x1.Broadcasts S4096x1
  shapeCasts_S4096x1_S32x128 : S4096x1.ShapeCasts S32x128
  dot_S128x128_S128x512_S128x512_1_0_0_1_n_n_wf : DotDims.WF S128x128 S128x512 S128x512 [1] [0] [0] [1] [] []
  dot_S32x128_S128x512_S32x512_1_0_0_1_n_n_wf : DotDims.WF S32x128 S128x512 S32x512 [1] [0] [0] [1] [] []
  dot_S4096x512_S512x512_S4096x512_1_0_0_1_n_n_wf : DotDims.WF S4096x512 S512x512 S4096x512 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S512x128.size a
  hwx0_0 : ∀ i : grid0.Coords, EltTy.bits .f32 = 32 ∨ (Rect.block (s := S512x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S512x128.size a
  hwx0_1 : ∀ i : grid0.Coords, EltTy.bits .f32 = 32 ∨ (Rect.block (s := S512x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S512x512.size a
  hwx0_9 : ∀ i : grid0.Coords, EltTy.bits .f32 = 32 ∨ (Rect.block (s := S512x512) S32x128.size (cc0_transform_9 i) (hinb0_9 i)).WholeWords (EltTy.packing .f32)

variable [Facts₀]

def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S32x128_S128x512_S32x512_1_0_0_1_n_n : DotDims S32x128 S128x512 S32x512 where
  lhsContracting := [1]
  rhsContracting := [0]
  lhsNonContracting := [0]
  rhsNonContracting := [1]
  lhsBatch := []
  rhsBatch := []
  wf := dot_S32x128_S128x512_S32x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S32x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S512x128 : Shape := ⟨2, ![512, 128]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S512x1x512 : Shape := ⟨3, ![512, 1, 512]⟩
abbrev S1x512x512 : Shape := ⟨3, ![1, 512, 512]⟩
abbrev S512x512x512 : Shape := ⟨3, ![512, 512, 512]⟩
abbrev S1x1x512 : Shape := ⟨3, ![1, 1, 512]⟩
abbrev S_ : Shape := ⟨0, ![]⟩
abbrev S512x512x1 : Shape := ⟨3, ![512, 512, 1]⟩
abbrev S1x1x1 : Shape := ⟨3, ![1, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x256, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S512x128, .f32⟩
  | .hbm, ⟨9, _⟩ => ⟨S512x512, .f32⟩
  | .hbm, ⟨10, _⟩ => ⟨S512x128, .f32⟩
  | .hbm, ⟨11, _⟩ => ⟨S512x512, .f32⟩
  | .hbm, ⟨12, _⟩ => ⟨S512x1x512, .f32⟩
  | .hbm, ⟨13, _⟩ => ⟨S1x512x512, .f32⟩
  | .hbm, ⟨14, _⟩ => ⟨S512x512x512, .f32⟩
  | .hbm, ⟨15, _⟩ => ⟨S512x512x512, .f32⟩
  | .hbm, ⟨16, _⟩ => ⟨S512x512x512, .f32⟩
  | .hbm, ⟨17, _⟩ => ⟨S1x1x512, .f32⟩
  | .hbm, ⟨18, _⟩ => ⟨S512x512x512, .f32⟩
  | .hbm, ⟨19, _⟩ => ⟨S512x512x512, .f32⟩
  | .hbm, ⟨20, _⟩ => ⟨S_, .f32⟩
  | .hbm, ⟨21, _⟩ => ⟨S512x512x512, .f32⟩
  | .hbm, ⟨22, _⟩ => ⟨S512x512x512, .f32⟩
  | .hbm, ⟨23, _⟩ => ⟨S512x512x512, .f32⟩
  | .hbm, ⟨24, _⟩ => ⟨S1x1x512, .f32⟩
  | .hbm, ⟨25, _⟩ => ⟨S512x512x512, .f32⟩
  | .hbm, ⟨26, _⟩ => ⟨S512x512x512, .f32⟩
  | .hbm, ⟨27, _⟩ => ⟨S_, .f32⟩
  | .hbm, ⟨28, _⟩ => ⟨S512x512x512, .f32⟩
  | .hbm, ⟨29, _⟩ => ⟨S512x512x512, .f32⟩
  | .hbm, ⟨30, _⟩ => ⟨S512x512x1, .f32⟩
  | .hbm, ⟨31, _⟩ => ⟨S1x1x1, .f32⟩
  | .hbm, ⟨32, _⟩ => ⟨S512x512x1, .f32⟩
  | .hbm, ⟨33, _⟩ => ⟨S512x512x1, .f32⟩
  | .hbm, ⟨34, _⟩ => ⟨S512x512, .f32⟩
  | .hbm, ⟨35, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩

abbrev nD : Nat := 1
abbrev τ : Topo := Topo.v7x

variable {F : FTy → Type} [FloatOps F]

class Facts₀ : Prop where
  slices_S512x256_S512x128_0_0 : S512x256.Slices ![0, 0] S512x128
  slices_S512x256_S512x128_0_128 : S512x256.Slices ![0, 128] S512x128
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  bcast_S512_S1x1x512_2 : S512.BroadcastsInDim S1x1x512 (![2] : Fin 1 → Fin S1x1x512.rank)
  bcast_S1x1x512_S512x512x512_0_1_2 : S1x1x512.BroadcastsInDim S512x512x512 (![0, 1, 2] : Fin 3 → Fin S512x512x512.rank)
  bcast_S_S512x512x512 : S_.BroadcastsInDim S512x512x512 (![] : Fin 0 → Fin S512x512x512.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  shapeCasts_S512x512x1_S512x512 : S512x512x1.ShapeCasts S512x512
  dot_S512x128_S512x128_S512x512_1_1_0_0_n_n_wf : DotDims.WF S512x128 S512x128 S512x512 [1] [1] [0] [0] [] []
  dot_S512x512x512_S512x512_S512x512x512_2_1_01_0_n_n_wf : DotDims.WF S512x512x512 S512x512 S512x512x512 [2] [1] [0, 1] [0] [] []
  dot_S512x512x512_S1x512_S512x512x1_2_1_01_0_n_n_wf : DotDims.WF S512x512x512 S1x512 S512x512x1 [2] [1] [0, 1] [0] [] []

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512x512_S512x512_S512x512x512_2_1_01_0_n_n : DotDims S512x512x512 S512x512 S512x512x512 where
  lhsContracting := [2]
  rhsContracting := [1]
  lhsNonContracting := [0, 1]
  rhsNonContracting := [0]
  lhsBatch := []
  rhsBatch := []
  wf := dot_S512x512x512_S512x512_S512x512x512_2_1_01_0_n_n_wf
def dot_S512x512x512_S1x512_S512x512x1_2_1_01_0_n_n : DotDims S512x512x512 S1x512 S512x512x1 where
  lhsContracting := [2]
  rhsContracting := [1]
  lhsNonContracting := [0, 1]
  rhsNonContracting := [0]
  lhsBatch := []
  rhsBatch := []
  wf := dot_S512x512x512_S1x512_S512x512x1_2_1_01_0_n_n_wf

class Facts : Prop extends Facts₀ where

variable [Facts]
-- ==== Proof.PairScore.lean ====
/-
  The score of one pair, as a function on the extended reals.

  A pair is a row `u` of `x` (128 numbers) and a row `v` of `y` (128 numbers).  With the first layer's weight
  split into the columns that meet `x` (`A`) and the columns that meet `y` (`B`), the pair's score is

      s(u, v) = Σ_g relu( Σ_h relu( (Σ_n v n · B h n  +  Σ_n u n · A h n)  +  b₁ h ) · W₂ g h  +  b₂ g ) · w₃ g  +  b₃ ,

  with relu t = max t 0.  Every sum is a finite sum of extended reals in the order written; nothing is
  rearranged, so no entry needs to be finite.  The array of scores is `s` at row `j` of `x` and row `i` of `y`, at
  index `(i, j)`.
-/
import Idealize.ShloMosaic.PureOps.Ideal
import Idealize.ShloMosaic.Lib.ValueIdx

noncomputable section

open scoped BigOperators

namespace Cert.PairScore

open Idealize.ShloMosaic Idealize.ShloMosaic.ValueIdx

/-- A matrix of extended reals, indexed by a rank-2 multi-index. -/
abbrev Mat (r c : Nat) : Type := (⟨2, ![r, c]⟩ : Shape).Idx → EReal
/-- A vector of extended reals, indexed by a rank-1 multi-index. -/
abbrev Vect (n : Nat) : Type := (⟨1, ![n]⟩ : Shape).Idx → EReal

/-- The first layer before its bias, at hidden unit `h`: the `y` row against `B` plus the `x` row against `A`. -/
def pre1 (u v : Fin 128 → EReal) (A B : Fin 512 → Fin 128 → EReal) (h : Fin 512) : EReal :=
  (∑ n : Fin 128, v n * B h n) + (∑ n : Fin 128, u n * A h n)

/-- The first hidden layer at unit `h`. -/
def hid1 (u v : Fin 128 → EReal) (A B : Fin 512 → Fin 128 → EReal) (b₁ : Fin 512 → EReal) (h : Fin 512) : EReal :=
  max (pre1 u v A B h + b₁ h) 0

/-- The second hidden layer at unit `g`. -/
def hid2 (u v : Fin 128 → EReal) (A B : Fin 512 → Fin 128 → EReal) (b₁ : Fin 512 → EReal)
    (W₂ : Fin 512 → Fin 512 → EReal) (b₂ : Fin 512 → EReal) (g : Fin 512) : EReal :=
  max ((∑ h : Fin 512, hid1 u v A B b₁ h * W₂ g h) + b₂ g) 0

/-- The score of the pair `(u, v)`. -/
def pair (u v : Fin 128 → EReal) (A B : Fin 512 → Fin 128 → EReal) (b₁ : Fin 512 → EReal)
    (W₂ : Fin 512 → Fin 512 → EReal) (b₂ : Fin 512 → EReal) (w₃ : Fin 512 → EReal) (b₃ : EReal) : EReal :=
  (∑ g : Fin 512, hid2 u v A B b₁ W₂ b₂ g * w₃ g) + b₃

/-- Column `n` of the half of `W₁` that meets `x`. -/
def colX (n : Fin 128) : Fin 256 := ⟨n.val, by have := n.isLt; omega⟩
/-- Column `n` of the half of `W₁` that meets `y`. -/
def colY (n : Fin 128) : Fin 256 := ⟨128 + n.val, by have := n.isLt; omega⟩

/-- The whole array of scores: entry `(i, j)` is the score of row `j` of `x` with row `i` of `y`. -/
def scores (x y : Mat 512 128) (W₁ : Mat 512 256) (b₁ : Vect 512) (W₂ : Mat 512 512) (b₂ : Vect 512)
    (W₃ : Mat 1 512) (b₃ : Vect 1) : Mat 512 512 := fun ij =>
  pair (fun n => x (ix2 (ij 1) n)) (fun n => y (ix2 (ij 0) n))
    (fun h n => W₁ (ix2 h (colX n))) (fun h n => W₁ (ix2 h (colY n))) (fun h => b₁ (ix1 h))
    (fun g h => W₂ (ix2 g h)) (fun g => b₂ (ix1 g)) (fun g => W₃ (ix2 0 g)) (b₃ (ix1 0))

end Cert.PairScore

end
-- ==== Proof.RefScores.lean ====
/-
  The reference, stage by stage, is the array of pair scores.

  The reference forms `x · W₁ₓᵀ` and `y · W₁ᵧᵀ` for all rows at once, adds them over all pairs with the bias,
  applies relu, contracts with `W₂`, adds the second bias, applies relu, contracts with `W₃`, adds the last
  bias and drops the unit axis.  Read at the index `(i, j)` every stage is the corresponding stage of the
  score of the pair (row `j` of `x`, row `i` of `y`): the broadcasts select the coordinates they keep, each
  contraction is the finite sum over its one contracted coordinate, and the reshape from `[512, 512, 1]`
  keeps the first two coordinates.
-/
import proofs.«107944_j62783831933329_1_alg».proof.Proof.Gen.ReferenceIdeal.Run
import proofs.«107944_j62783831933329_1_alg».proof.Proof.Gen.ReferenceIdeal.Read
import proofs.«107944_j62783831933329_1_alg».proof.Proof.PairScore

noncomputable section

open scoped BigOperators

namespace Cert.ReferenceIdeal.Scores

open Cert.ReferenceIdeal Cert.ReferenceIdeal.Read Cert.PairScore
open Idealize.ShloMosaic Idealize.ShloMosaic.ValueIdx

variable (x y : (⟨S512x128, .f32⟩ : BufTy).Contents (Elt Ideal)) (W₁ : (⟨S512x256, .f32⟩ : BufTy).Contents (Elt Ideal))
  (b₁ : (⟨S512, .f32⟩ : BufTy).Contents (Elt Ideal)) (W₂ : (⟨S512x512, .f32⟩ : BufTy).Contents (Elt Ideal))
  (b₂ : (⟨S512, .f32⟩ : BufTy).Contents (Elt Ideal)) (W₃ : (⟨S1x512, .f32⟩ : BufTy).Contents (Elt Ideal))
  (b₃ : (⟨S1, .f32⟩ : BufTy).Contents (Elt Ideal))

/-! ## The index maps of the stages, at indices given by coordinates -/

theorem sliceX_idx (h : Fin 512) (n : Fin 128) : idx_main_v0 (ix2 h n) = ix2 h (colX n) :=
  funext fun a => Fin.ext (by match a with | ⟨0, _⟩ => rfl | ⟨1, _⟩ => rfl)
theorem sliceY_idx (h : Fin 512) (n : Fin 128) : idx_main_v2 (ix2 h n) = ix2 h (colY n) :=
  funext fun a => Fin.ext (by match a with | ⟨0, _⟩ => rfl | ⟨1, _⟩ => rfl)
theorem dotX_l (j h : Fin 512) (n : Fin 128) : lidx_main_v1 (ix2 j h) n = ix2 j n :=
  funext fun a => Fin.ext (by match a with | ⟨0, _⟩ => rfl | ⟨1, _⟩ => rfl)
theorem dotX_r (j h : Fin 512) (n : Fin 128) : ridx_main_v1 (ix2 j h) n = ix2 h n :=
  funext fun a => Fin.ext (by match a with | ⟨0, _⟩ => rfl | ⟨1, _⟩ => rfl)
theorem dotY_l (i h : Fin 512) (n : Fin 128) : lidx_main_v3 (ix2 i h) n = ix2 i n :=
  funext fun a => Fin.ext (by match a with | ⟨0, _⟩ => rfl | ⟨1, _⟩ => rfl)
theorem dotY_r (i h : Fin 512) (n : Fin 128) : ridx_main_v3 (ix2 i h) n = ix2 h n :=
  funext fun a => Fin.ext (by match a with | ⟨0, _⟩ => rfl | ⟨1, _⟩ => rfl)
theorem bcastY_idx (i j h : Fin 512) : idx_main_v4 (idx_main_v6 (ix3 i j h)) = ix2 i h :=
  funext fun a => Fin.ext (by match a with | ⟨0, _⟩ => rfl | ⟨1, _⟩ => rfl)
theorem bcastX_idx (i j h : Fin 512) : idx_main_v5 (idx_main_v7 (ix3 i j h)) = ix2 j h :=
  funext fun a => Fin.ext (by match a with | ⟨0, _⟩ => rfl | ⟨1, _⟩ => rfl)
theorem bias1_idx (i j h : Fin 512) : idx_main_v9 (idx_main_v10 (ix3 i j h)) = ix1 h :=
  funext fun a => Fin.ext (by match a with | ⟨0, _⟩ => rfl)
theorem dot2_l (i j g h : Fin 512) : lidx_main_v13 (ix3 i j g) h = ix3 i j h :=
  funext fun a => Fin.ext (by match a with | ⟨0, _⟩ => rfl | ⟨1, _⟩ => rfl | ⟨2, _⟩ => rfl)
theorem dot2_r (i j g h : Fin 512) : ridx_main_v13 (ix3 i j g) h = ix2 g h :=
  funext fun a => Fin.ext (by match a with | ⟨0, _⟩ => rfl | ⟨1, _⟩ => rfl)
theorem bias2_idx (i j g : Fin 512) : idx_main_v14 (idx_main_v15 (ix3 i j g)) = ix1 g :=
  funext fun a => Fin.ext (by match a with | ⟨0, _⟩ => rfl)
theorem dot3_l (i j : Fin 512) (o : Fin 1) (g : Fin 512) : lidx_main_v18 (ix3 i j o) g = ix3 i j g :=
  funext fun a => Fin.ext (by match a with | ⟨0, _⟩ => rfl | ⟨1, _⟩ => rfl | ⟨2, _⟩ => rfl)
theorem dot3_r (i j : Fin 512) (g : Fin 512) : ridx_main_v18 (ix3 i j (0 : Fin 1)) g = ix2 0 g :=
  funext fun a => Fin.ext (by match a with | ⟨0, _⟩ => rfl | ⟨1, _⟩ => rfl)
theorem bias3_idx (i j : Fin 512) (o : Fin 1) : idx_main_v19 (idx_main_v20 (ix3 i j o)) = ix1 0 :=
  funext fun a => Fin.ext (by match a with | ⟨0, _⟩ => rfl)
/-- The reshape from `[512, 512, 1]`: position `i · 512 + j` is `(i, j, 0)`. -/
theorem squeeze_idx (i j : Fin 512) : idx_main_v22 (ix2 i j) = ix3 i j (0 : Fin 1) :=
  funext fun a => Fin.ext (by
    have hi := i.isLt; have hj := j.isLt
    match a with
    | ⟨0, _⟩ => show (i.val * 512 + j.val) / 512 = i.val; omega
    | ⟨1, _⟩ => show (i.val * 512 + j.val) / 1 % 512 = j.val; omega
    | ⟨2, _⟩ => rfl)

/-! ## The stages -/

/-- `x · W₁ₓᵀ` at `(j, h)`. -/
theorem projX_apply (j h : Fin 512) :
    val_main_v1 (F := Ideal) x W₁ (ix2 j h) = ∑ n : Fin 128, x (ix2 j n) * W₁ (ix2 h (colX n)) := by
  rw [val_main_v1_apply]
  refine Finset.sum_congr rfl fun n _ => ?_
  rw [val_main_v0_apply, dotX_l, dotX_r, sliceX_idx]

/-- `y · W₁ᵧᵀ` at `(i, h)`. -/
theorem projY_apply (i h : Fin 512) :
    val_main_v3 (F := Ideal) y W₁ (ix2 i h) = ∑ n : Fin 128, y (ix2 i n) * W₁ (ix2 h (colY n)) := by
  rw [val_main_v3_apply]
  refine Finset.sum_congr rfl fun n _ => ?_
  rw [val_main_v2_apply, dotY_l, dotY_r, sliceY_idx]

/-- The first hidden layer at `(i, j, h)`. -/
theorem hid1_apply (i j h : Fin 512) :
    val_main_v12 (F := Ideal) x y W₁ b₁ (ix3 i j h)
      = hid1 (fun n => x (ix2 j n)) (fun n => y (ix2 i n)) (fun h n => W₁ (ix2 h (colX n)))
          (fun h n => W₁ (ix2 h (colY n))) (fun h => b₁ (ix1 h)) h := by
  rw [val_main_v12_apply, val_main_v11_apply, val_main_v8_apply, val_main_v6_apply, val_main_v4_apply,
    val_main_v7_apply, val_main_v5_apply, val_main_v10_apply, val_main_v9_apply, val_main_call0_v0_apply,
    val_main_call0_cst_apply, bcastY_idx, bcastX_idx, bias1_idx, projX_apply, projY_apply]
  simp only [Ideal.maximumf_def, Ideal.addf_def, Ideal.ofBits_def, Ideal.ofBits_zero_f32]
  rfl

/-- The second hidden layer at `(i, j, g)`. -/
theorem hid2_apply (i j g : Fin 512) :
    val_main_v17 (F := Ideal) x y W₁ b₁ W₂ b₂ (ix3 i j g)
      = hid2 (fun n => x (ix2 j n)) (fun n => y (ix2 i n)) (fun h n => W₁ (ix2 h (colX n)))
          (fun h n => W₁ (ix2 h (colY n))) (fun h => b₁ (ix1 h)) (fun g h => W₂ (ix2 g h)) (fun g => b₂ (ix1 g)) g := by
  rw [val_main_v17_apply, val_main_v16_apply, val_main_v13_apply, val_main_v15_apply, val_main_v14_apply,
    val_main_call1_v0_apply, val_main_call1_cst_apply, bias2_idx]
  simp only [dot2_l, dot2_r, hid1_apply, Ideal.maximumf_def, Ideal.addf_def, Ideal.ofBits_def, Ideal.ofBits_zero_f32]
  rfl

/-- The reference's result is the array of pair scores. -/
theorem result_eq_scores :
    val_main_v22 (F := Ideal) x y W₁ b₁ W₂ b₂ W₃ b₃ = scores x y W₁ b₁ W₂ b₂ W₃ b₃ := by
  funext ij
  obtain ⟨i, j, rfl⟩ : ∃ (i j : Fin 512), ij = ix2 i j := ⟨ij 0, ij 1, eq_ix2 ij⟩
  rw [val_main_v22_apply, squeeze_idx, val_main_v21_apply, val_main_v18_apply, val_main_v20_apply,
    val_main_v19_apply, bias3_idx]
  simp only [dot3_l, dot3_r, hid2_apply, Ideal.addf_def]
  rfl

end Cert.ReferenceIdeal.Scores

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.KernelBody.lean ====
/-
  One block of the kernel's output is a tile of pair scores.

  At a grid point the body holds a tile of 128 rows of `x`, a tile of 32 rows of `y`, and the whole of the two halves of
  `W₁`, of `b₁`, `W₂`, `b₂`, `W₃` and `b₃`.  It forms the two first-layer products, adds them over the 32 × 128 pairs of
  rows together with `b₁`, applies relu, lays the pairs out as 4096 rows (pair `(q, p)` is row `q · 128 + p`), multiplies
  by `W₂ᵀ`, adds `b₂`, applies relu, multiplies by `W₃ᵀ`, adds `b₃`, and lays the 4096 scores out as a 32 × 128 tile.
  On the extended reals the changes of float format are the identity and a product accumulated into zero is the finite
  sum over the contracted coordinate, so entry `(q, p)` of the tile is the score of the pair
  (row `p` of the `x` tile, row `q` of the `y` tile).
-/
import proofs.«107944_j62783831933329_1_alg».proof.Proof.Gen.KernelIdeal.Skeleton
import proofs.«107944_j62783831933329_1_alg».proof.Proof.PairScore
import proofs.«107944_j62783831933329_1_alg».proof.Proof.LibDotRead
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Cert.PairScore Cert.DotRead
open Idealize.ShloMosaic Idealize.ShloMosaic.ValueIdx
open Facts₀

/-- The row of the 4096-row layout that holds the pair (`y` row `q` of the tile, `x` row `p` of the tile). -/
def row (q : Fin 32) (p : Fin 128) : Fin 4096 := ⟨q.val * 128 + p.val, by have := q.isLt; have := p.isLt; omega⟩

/-! ## A product accumulated into zero -/

/-- An `m × k` by `k × n` product accumulated into the zero matrix, at `(a, b)`: the sum over the contracted coordinate. -/
theorem matmul_zero_plain {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) :=
  (Ideal.matmul_constant_zero_apply _ none A B (ix2 a b)).trans (sum_contr_plain w A B a b)

/-! ## The layout steps at an index -/

section Layout
variable {α : Type}

/-- 4096 rows of one column laid out as 32 × 128: entry `(q, p)` is row `q · 128 + p`. -/
theorem cast_col_tile (v : S4096x1.Idx → α) (h : S4096x1.ShapeCasts S32x128) (q : Fin 32) (p : Fin 128) :
    shapeCast S32x128 v h (ix2 q p) = v (ix2 (row q p) (0 : Fin 1)) :=
  shapeCast_apply v h _ _ (by
    rw [Shape.rowMajor_val_two, Shape.rowMajor_val_two]
    show (q.val * 128 + p.val) * 1 + 0 = q.val * 128 + p.val
    omega)

/-- 32 × 128 pairs laid out as 4096 rows: row `q · 128 + p` is pair `(q, p)`. -/
theorem cast_pairs_rows (v : S32x128x512.Idx → α) (h : S32x128x512.ShapeCasts S4096x512) (q : Fin 32) (p : Fin 128)
    (k : Fin 512) : shapeCast S4096x512 v h (ix2 (row q p) k) = v (ix3 q p k) :=
  shapeCast_apply v h _ _ (by
    rw [Shape.rowMajor_val_three, Shape.rowMajor_val_two]
    show (q.val * 128 + p.val) * 512 + k.val = (q.val * 128 + p.val) * 512 + k.val
    rfl)

/-- A unit axis put between the rows and the columns of a 32 × 512 matrix. -/
theorem cast_mid_unit (v : S32x512.Idx → α) (h : S32x512.ShapeCasts S32x1x512) (q : Fin 32) (u : Fin 1) (k : Fin 512) :
    shapeCast S32x1x512 v h (ix3 q u k) = v (ix2 q k) :=
  shapeCast_apply v h _ _ (by
    have hu : u.val = 0 := by omega
    rw [Shape.rowMajor_val_two, Shape.rowMajor_val_three]
    show q.val * 512 + k.val = (q.val * 1 + u.val) * 512 + k.val
    rw [hu]; omega)

/-- A vector of 512 viewed as 1 × 1 × 512. -/
theorem cast_two_units (v : S512.Idx → α) (h : S512.ShapeCasts S1x1x512) (u u' : Fin 1) (k : Fin 512) :
    shapeCast S1x1x512 v h (ix3 u u' k) = v (ix1 k) :=
  shapeCast_apply v h _ _ (by
    have hu : u.val = 0 := by omega
    have hu' : u'.val = 0 := by omega
    rw [Shape.rowMajor_val_one, Shape.rowMajor_val_three]
    show k.val = (u.val * 1 + u'.val) * 512 + k.val
    rw [hu, hu']; omega)

/-- The `y` side, one matrix per `y` row, repeated over the 128 `x` rows. -/
theorem bcast_over_x (v : S32x1x512.Idx → α) (h : S32x1x512.Broadcasts S32x128x512) (q : Fin 32) (p : Fin 128)
    (k : Fin 512) : broadcastTo S32x128x512 v h (ix3 q p k) = v (ix3 q (0 : Fin 1) k) :=
  broadcastTo_apply v h _ _ fun a => match a with
    | ⟨0, _⟩ => by show q.val = if (32 : Nat) = 1 then 0 else q.val; rw [if_neg (by decide)]
    | ⟨1, _⟩ => by show 0 = if (1 : Nat) = 1 then 0 else p.val; rw [if_pos rfl]
    | ⟨2, _⟩ => by show k.val = if (512 : Nat) = 1 then 0 else k.val; rw [if_neg (by decide)]

/-- The `x` side, repeated over the 32 `y` rows. -/
theorem bcast_over_y (v : S1x128x512.Idx → α) (h : S1x128x512.Broadcasts S32x128x512) (q : Fin 32) (p : Fin 128)
    (k : Fin 512) : broadcastTo S32x128x512 v h (ix3 q p k) = v (ix3 (0 : Fin 1) p k) :=
  broadcastTo_apply v h _ _ fun a => match a with
    | ⟨0, _⟩ => by show 0 = if (1 : Nat) = 1 then 0 else q.val; rw [if_pos rfl]
    | ⟨1, _⟩ => by show p.val = if (128 : Nat) = 1 then 0 else p.val; rw [if_neg (by decide)]
    | ⟨2, _⟩ => by show k.val = if (512 : Nat) = 1 then 0 else k.val; rw [if_neg (by decide)]

/-- The first bias, repeated over all pairs. -/
theorem bcast_over_pairs (v : S1x1x512.Idx → α) (h : S1x1x512.Broadcasts S32x128x512) (q : Fin 32) (p : Fin 128)
    (k : Fin 512) : broadcastTo S32x128x512 v h (ix3 q p k) = v (ix3 (0 : Fin 1) (0 : Fin 1) k) :=
  broadcastTo_apply v h _ _ fun a => match a with
    | ⟨0, _⟩ => by show 0 = if (1 : Nat) = 1 then 0 else q.val; rw [if_pos rfl]
    | ⟨1, _⟩ => by show 0 = if (1 : Nat) = 1 then 0 else p.val; rw [if_pos rfl]
    | ⟨2, _⟩ => by show k.val = if (512 : Nat) = 1 then 0 else k.val; rw [if_neg (by decide)]

end Layout

/-! ## The body's two payloads at an index -/

variable (xb : FVec Ideal S128x128 .f32) (yb : FVec Ideal S32x128 .f32) (wx wy : FVec Ideal S512x128 .f32)
  (b1 : FVec Ideal S512 .f32) (w2 : FVec Ideal S512x512 .f32) (b2 : FVec Ideal S512 .f32)
  (w3 : FVec Ideal S1x512 .f32) (b3 : FVec Ideal S1 .f32)

/-- The last layer: the score row of a pair from its second hidden layer. -/
theorem last_layer_apply (v37 : FVec Ideal S4096x512 .bf16) (q : Fin 32) (p : Fin 128) :
    k0_pay1 (F := Ideal) v37 w3 b3 (ix2 q p) = (∑ g : Fin 512, v37 (ix2 (row q p) g) * w3 (ix2 0 g)) + b3 (ix1 0) := by
  unfold k0_pay1
  refine (cast_col_tile _ _ q p).trans ?_
  refine (addf_apply _ _ _).trans ?_
  refine congrArg₂ (· + ·) ?_ ?_
  · refine (matmul_zero_plain _ _ _ (row q p) (0 : Fin 1)).trans ?_
    refine Finset.sum_congr rfl fun g _ => ?_
    refine congrArg₂ (· * ·) rfl ?_
    exact transpose_ix2_apply _ _ g (0 : Fin 1)
  · refine (broadcastTo_1b_ab_apply _ _ (row q p) (0 : Fin 1)).trans ?_
    exact shapeCast_a_1a_apply _ _ (0 : Fin 1) (0 : Fin 1)

/-- The second hidden layer of pair `(q, p)` at unit `g`. -/
theorem hidden_apply (q : Fin 32) (p : Fin 128) (g : Fin 512) :
    k0_pay2 (F := Ideal) xb yb wx wy b1 w2 b2 (ix2 (row q p) g)
      = hid2 (fun n => xb (ix2 p n)) (fun n => yb (ix2 q n)) (fun h n => wx (ix2 h n)) (fun h n => wy (ix2 h n))
          (fun h => b1 (ix1 h)) (fun g h => w2 (ix2 g h)) (fun g => b2 (ix1 g)) g := by
  unfold k0_pay2 hid2
  refine (maximumf_apply _ _ _).trans ?_
  refine congrArg₂ max ?_ Ideal.ofBits_zero_f32
  refine (addf_apply _ _ _).trans ?_
  refine congrArg₂ (· + ·) ?_ ?_
  · refine (matmul_zero_plain _ _ _ (row q p) g).trans ?_
    refine Finset.sum_congr rfl fun h _ => ?_
    refine congrArg₂ (· * ·) ?_ ?_
    · refine (cast_pairs_rows _ _ q p h).trans ?_
      unfold hid1 pre1
      refine (maximumf_apply _ _ _).trans ?_
      refine congrArg₂ max ?_ Ideal.ofBits_zero_f32
      refine (addf_apply _ _ _).trans ?_
      refine congrArg₂ (· + ·) ?_ ?_
      · refine (addf_apply _ _ _).trans ?_
        refine congrArg₂ (· + ·) ?_ ?_
        · refine (bcast_over_x _ _ q p h).trans ?_
          refine (cast_mid_unit _ _ q (0 : Fin 1) h).trans ?_
          refine (matmul_zero_plain _ _ _ q h).trans ?_
          refine Finset.sum_congr rfl fun n _ => ?_
          refine congrArg₂ (· * ·) rfl ?_
          refine (transpose_ix2_apply _ _ n h).trans ?_
          exact congrFun (shapeCast_self wy _) (ix2 h n)
        · refine (bcast_over_y _ _ q p h).trans ?_
          refine (shapeCast_ab_1ab_apply _ _ (0 : Fin 1) p h).trans ?_
          refine (matmul_zero_plain _ _ _ p h).trans ?_
          refine Finset.sum_congr rfl fun n _ => ?_
          refine congrArg₂ (· * ·) rfl ?_
          refine (transpose_ix2_apply _ _ n h).trans ?_
          exact congrFun (shapeCast_self wx _) (ix2 h n)
      · refine (bcast_over_pairs _ _ q p h).trans ?_
        exact cast_two_units _ _ (0 : Fin 1) (0 : Fin 1) h
    · exact transpose_ix2_apply _ _ h g
  · refine (broadcastTo_1b_ab_apply _ _ (row q p) g).trans ?_
    exact shapeCast_a_1a_apply _ _ (0 : Fin 1) g

/-- THE BODY'S RESULT at `(q, p)` is the score of the pair (row `p` of the `x` tile, row `q` of the `y` tile). -/
theorem tile_apply (q : Fin 32) (p : Fin 128) :
    k0_pay1 (F := Ideal) (k0_pay2 (F := Ideal) xb yb wx wy b1 w2 b2) w3 b3 (ix2 q p)
      = pair (fun n => xb (ix2 p n)) (fun n => yb (ix2 q n)) (fun h n => wx (ix2 h n)) (fun h n => wy (ix2 h n))
          (fun h => b1 (ix1 h)) (fun g h => w2 (ix2 g h)) (fun g => b2 (ix1 g)) (fun g => w3 (ix2 0 g)) (b3 (ix1 0)) := by
  refine (last_layer_apply w3 b3 _ q p).trans ?_
  unfold pair
  exact congrArg₂ (· + ·) (Finset.sum_congr rfl fun g _ =>
    congrArg₂ (· * ·) (hidden_apply xb yb wx wy b1 w2 b2 q p g) rfl) rfl

end Cert.KernelIdeal.Body

end
-- ==== Proof.KernelScores.lean ====
/-
  The kernel's output array is the array of pair scores.

  The grid has 16 × 4 points; point `(I, J)` holds rows `J · 128 …` of `x`, rows `I · 32 …` of `y` and every parameter
  whole, and writes back the 32 × 128 tile of the output at rows `I · 32 …`, columns `J · 128 …`.  By the body's lemma the
  tile's entry `(q, p)` is the score of (row `J · 128 + p` of `x`, row `I · 32 + q` of `y`), which is entry
  `(I · 32 + q, J · 128 + p)` of the array of scores; the tiles cover the array, so after the run the output array is the
  array of scores.  The two halves of `W₁` reach the kernel as slices the program takes before the launch; the second
  result is the constant the program writes after it.
-/
import proofs.«107944_j62783831933329_1_alg».proof.Proof.Gen.KernelIdeal.Frame
import proofs.«107944_j62783831933329_1_alg».proof.Proof.KernelBody
import Idealize.ShloMosaic.Lib.Pipeline.Value
import Idealize.ShloMosaic.Lib.StableHlo.Run

set_option maxRecDepth 16384

noncomputable section

open scoped BigOperators

namespace Cert.KernelIdeal.Scores

open Cert.KernelIdeal Cert.KernelIdeal.Gen Cert.KernelIdeal.Body Cert.PairScore
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The array of scores of the launch memory's arguments. -/
def G (c : Dev nD) : S512x512.Idx → EReal :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What the body leaves in the output's buffer is its last payload of its first. -/
theorem out_eq (x0 : Vec Ideal S128x128 .f32) (x1 : Vec Ideal S32x128 .f32) (x2 x3 : Vec Ideal S512x128 .f32)
    (x4 : Vec Ideal S512 .f32) (x5 : Vec Ideal S512x512 .f32) (x6 : Vec Ideal S512 .f32) (x7 : Vec Ideal S1x512 .f32)
    (x8 : Vec Ideal S1 .f32) :
    out0_9 x0 x1 x2 x3 x4 x5 x6 x7 x8 = k0_pay1 (k0_pay2 x0 x1 x2 x3 x4 x5 x6) x7 x8 := by
  unfold out0_9
  rw [View.canon_unit_zero hz2]
  simp only [View.ld_unit_zero (S := S128x128) hz2, View.ld_unit_zero (S := S32x128) hz2,
    View.ld_unit_zero (S := S512x128) hz2, View.ld_unit_zero (S := S512) hz1, View.ld_unit_zero (S := S512x512) hz2,
    View.ld_unit_zero (S := S1x512) hz2, View.ld_unit_zero (S := S1) hz1]

/-! ## The two halves of `W₁` as the region finds them -/

theorem V_main_v0 (c : Dev nD) : (V m c main_v0 : S512x128.Idx → EReal)
    = extractStridedSlice S512x128 ![0, 0] (m ((c : Thread nD τ).loc main_arg2)) slices_S512x256_S512x128_0_0 := by
  show StableHlo.after hostOps0 (fun b => m (c, b)) (Proc.devRef .tc main_v0) = _
  after_results <;> rfl

theorem V_main_v1 (c : Dev nD) : (V m c main_v1 : S512x128.Idx → EReal)
    = extractStridedSlice S512x128 ![0, 128] (m ((c : Thread nD τ).loc main_arg2)) slices_S512x256_S512x128_0_128 := by
  show StableHlo.after hostOps0 (fun b => m (c, b)) (Proc.devRef .tc main_v1) = _
  after_results <;> rfl

/-! ## A tile of scores from tiles of the arguments -/

/-- If the `x` tile holds rows `J · 128 …` of `x`, the `y` tile rows `I · 32 …` of `y`, and the two weight tiles the two
    halves of `W₁`, the body's result at `(q, p)` is entry `(I · 32 + q, J · 128 + p)` of the array of scores. -/
theorem tile_scores (x y : Mat 512 128) (W₁ : Mat 512 256) (b₁ : Vect 512) (W₂ : Mat 512 512) (b₂ : Vect 512)
    (W₃ : Mat 1 512) (b₃ : Vect 1)
    (xb : FVec Ideal S128x128 .f32) (yb : FVec Ideal S32x128 .f32) (wx wy : FVec Ideal S512x128 .f32)
    (I J : Nat) (hI : I ≤ 15) (hJ : J ≤ 3)
    (hx : ∀ (p n : Fin 128), xb (ix2 p n) = x (ix2 ⟨J * 128 + p.val, by have := p.isLt; omega⟩ n))
    (hy : ∀ (q : Fin 32) (n : Fin 128), yb (ix2 q n) = y (ix2 ⟨I * 32 + q.val, by have := q.isLt; omega⟩ n))
    (hwx : ∀ (h : Fin 512) (n : Fin 128), wx (ix2 h n) = W₁ (ix2 h (colX n)))
    (hwy : ∀ (h : Fin 512) (n : Fin 128), wy (ix2 h n) = W₁ (ix2 h (colY n)))
    (q : Fin 32) (p : Fin 128) :
    k0_pay1 (F := Ideal) (k0_pay2 (F := Ideal) xb yb wx wy b₁ W₂ b₂) W₃ b₃ (ix2 q p)
      = scores x y W₁ b₁ W₂ b₂ W₃ b₃
          (ix2 ⟨I * 32 + q.val, by have := q.isLt; omega⟩ ⟨J * 128 + p.val, by have := p.isLt; omega⟩) := by
  rw [tile_apply]
  unfold scores
  simp only [hx, hy, hwx, hwy]

/-! ## The index maps over the grid -/

/-- Decided over the 64 points: the `x` tile follows the output's column block, the `y` tile its row block, every
    parameter is held whole, and the output's block indices stay in their ranges. -/
theorem idx_facts : ∀ t : Fin cfg0.N,
    win0_0.index t (0 : Fin 2) = win0_9.index t (1 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) ≤ 15 ∧ win0_9.index t (1 : Fin 2) ≤ 3 :=
  (by decide +kernel : ∀ t : Fin grid0.N, _)

/-- Every tile of the output is some point's. -/
theorem idx_onto : ∀ (I : Fin 16) (J : Fin 4), ∃ t : Fin cfg0.N, win0_9.index t = ![I.val, J.val] :=
  (by decide +kernel : ∀ (I : Fin 16) (J : Fin 4), ∃ t : Fin grid0.N, win0_9.index t = ![I.val, J.val])

/-! ## The blocks as the region finds them -/

theorem xblk_apply (c : Dev nD) (t : Fin cfg0.N) (J : Nat) (hJ : J ≤ 3) (e0 : win0_0.index t (0 : Fin 2) = J)
    (e1 : win0_0.index t (1 : Fin 2) = 0) (p n : Fin 128) :
    (iblk m c 0 t : S128x128.Idx → EReal) (ix2 p n)
      = m ((c : Thread nD τ).loc main_arg0) (ix2 ⟨J * 128 + p.val, by have := p.isLt; omega⟩ n) := by
  show V m c main_arg0 (((cfg0.win 0).blk t).view.emb (ix2 p n)) = _
  rw [V_main_arg0]
  refine congrArg _ (funext fun a => Fin.ext ?_)
  match a with
  | ⟨0, _⟩ => show win0_0.index t (0 : Fin 2) * 128 + 1 * p.val = J * 128 + p.val; omega
  | ⟨1, _⟩ => show win0_0.index t (1 : Fin 2) * 128 + 1 * n.val = n.val; omega

theorem yblk_apply (c : Dev nD) (t : Fin cfg0.N) (I : Nat) (hI : I ≤ 15) (e0 : win0_1.index t (0 : Fin 2) = I)
    (e1 : win0_1.index t (1 : Fin 2) = 0) (q : Fin 32) (n : Fin 128) :
    (iblk m c 1 t : S32x128.Idx → EReal) (ix2 q n)
      = m ((c : Thread nD τ).loc main_arg1) (ix2 ⟨I * 32 + q.val, by have := q.isLt; omega⟩ n) := by
  show V m c main_arg1 (((cfg0.win 1).blk t).view.emb (ix2 q n)) = _
  rw [V_main_arg1]
  refine congrArg _ (funext fun a => Fin.ext ?_)
  match a with
  | ⟨0, _⟩ => show win0_1.index t (0 : Fin 2) * 32 + 1 * q.val = I * 32 + q.val; omega
  | ⟨1, _⟩ => show win0_1.index t (1 : Fin 2) * 128 + 1 * n.val = n.val; omega

theorem wxblk_apply (c : Dev nD) (t : Fin cfg0.N) (e0 : win0_2.index t (0 : Fin 2) = 0)
    (e1 : win0_2.index t (1 : Fin 2) = 0) (h : Fin 512) (n : Fin 128) :
    (iblk m c 2 t : S512x128.Idx → EReal) (ix2 h n) = m ((c : Thread nD τ).loc main_arg2) (ix2 h (colX n)) := by
  show V m c main_v0 (((cfg0.win 2).blk t).view.emb (ix2 h n)) = _
  rw [V_main_v0]
  refine extractStridedSlice_apply _ _ _ _ _ fun a => ?_
  match a with
  | ⟨0, _⟩ => show h.val = 0 + (win0_2.index t (0 : Fin 2) * 512 + 1 * h.val); omega
  | ⟨1, _⟩ => show n.val = 0 + (win0_2.index t (1 : Fin 2) * 128 + 1 * n.val); omega

theorem wyblk_apply (c : Dev nD) (t : Fin cfg0.N) (e0 : win0_3.index t (0 : Fin 2) = 0)
    (e1 : win0_3.index t (1 : Fin 2) = 0) (h : Fin 512) (n : Fin 128) :
    (iblk m c 3 t : S512x128.Idx → EReal) (ix2 h n) = m ((c : Thread nD τ).loc main_arg2) (ix2 h (colY n)) := by
  show V m c main_v1 (((cfg0.win 3).blk t).view.emb (ix2 h n)) = _
  rw [V_main_v1]
  refine extractStridedSlice_apply _ _ _ _ _ fun a => ?_
  match a with
  | ⟨0, _⟩ => show h.val = 0 + (win0_3.index t (0 : Fin 2) * 512 + 1 * h.val); omega
  | ⟨1, _⟩ => show 128 + n.val = 128 + (win0_3.index t (1 : Fin 2) * 128 + 1 * n.val); omega

theorem b1blk_eq (c : Dev nD) (t : Fin cfg0.N) (e0 : win0_4.index t (0 : Fin 1) = 0) :
    (iblk m c 4 t : S512.Idx → EReal) = m ((c : Thread nD τ).loc main_arg3) := by
  funext y
  show V m c main_arg3 (((cfg0.win 4).blk t).view.emb y) = _
  rw [V_main_arg3]
  refine congrArg _ (funext fun a => Fin.ext ?_)
  match a with
  | ⟨0, _⟩ => show win0_4.index t (0 : Fin 1) * 512 + 1 * (y 0).val = (y 0).val; omega

theorem w2blk_eq (c : Dev nD) (t : Fin cfg0.N) (e0 : win0_5.index t (0 : Fin 2) = 0) (e1 : win0_5.index t (1 : Fin 2) = 0) :
    (iblk m c 5 t : S512x512.Idx → EReal) = m ((c : Thread nD τ).loc main_arg4) := by
  funext y
  show V m c main_arg4 (((cfg0.win 5).blk t).view.emb y) = _
  rw [V_main_arg4]
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem b2blk_eq (c : Dev nD) (t : Fin cfg0.N) (e0 : win0_6.index t (0 : Fin 1) = 0) :
    (iblk m c 6 t : S512.Idx → EReal) = m ((c : Thread nD τ).loc main_arg5) := by
  funext y
  show V m c main_arg5 (((cfg0.win 6).blk t).view.emb y) = _
  rw [V_main_arg5]
  refine congrArg _ (funext fun a => Fin.ext ?_)
  match a with
  | ⟨0, _⟩ => show win0_6.index t (0 : Fin 1) * 512 + 1 * (y 0).val = (y 0).val; omega

theorem w3blk_eq (c : Dev nD) (t : Fin cfg0.N) (e0 : win0_7.index t (0 : Fin 2) = 0) (e1 : win0_7.index t (1 : Fin 2) = 0) :
    (iblk m c 7 t : S1x512.Idx → EReal) = m ((c : Thread nD τ).loc main_arg6) := by
  funext y
  show V m c main_arg6 (((cfg0.win 7).blk t).view.emb y) = _
  rw [V_main_arg6]
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 512 + 1 * (y 1).val = (y 1).val; omega

theorem b3blk_eq (c : Dev nD) (t : Fin cfg0.N) (e0 : win0_8.index t (0 : Fin 1) = 0) :
    (iblk m c 8 t : S1.Idx → EReal) = m ((c : Thread nD τ).loc main_arg7) := by
  funext y
  show V m c main_arg7 (((cfg0.win 8).blk t).view.emb y) = _
  rw [V_main_arg7]
  refine congrArg _ (funext fun a => Fin.ext ?_)
  match a with
  | ⟨0, _⟩ => show win0_8.index t (0 : Fin 1) * 1 + 1 * (y 0).val = (y 0).val; omega

/-! ## What a point writes back, the cover, the array after the run -/

/-- WHAT POINT `t` WRITES BACK is tile `t` of the array of scores. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9, out_eq]
  obtain ⟨e00, e01, e10, e11, e20, e21, e30, e31, e40, e50, e51, e60, e70, e71, e80, hI, hJ⟩ := idx_facts t
  funext yy
  obtain ⟨q, p, rfl⟩ : ∃ (q : Fin 32) (p : Fin 128), yy = ix2 q p := ⟨yy 0, yy 1, eq_ix2 yy⟩
  show k0_pay1 (F := Ideal) (k0_pay2 (F := Ideal) (iblk m c 0 t) (iblk m c 1 t) (iblk m c 2 t) (iblk m c 3 t)
      (iblk m c 4 t : S512.Idx → EReal) (iblk m c 5 t : S512x512.Idx → EReal) (iblk m c 6 t : S512.Idx → EReal))
      (iblk m c 7 t : S1x512.Idx → EReal) (iblk m c 8 t : S1.Idx → EReal) (ix2 q p)
    = G m c (((cfg0.win 9).blk t).view.emb (ix2 q p))
  rw [b1blk_eq m c t e40, w2blk_eq m c t e50 e51, b2blk_eq m c t e60, w3blk_eq m c t e70 e71, b3blk_eq m c t e80]
  refine (tile_scores (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (iblk m c 0 t) (iblk m c 1 t) (iblk m c 2 t) (iblk m c 3 t)
    (win0_9.index t (0 : Fin 2)) (win0_9.index t (1 : Fin 2)) hI hJ
    (xblk_apply m c t _ hJ e00 e01) (yblk_apply m c t _ hI e10 e11) (wxblk_apply m c t e20 e21)
    (wyblk_apply m c t e30 e31) q p).trans ?_
  unfold G
  refine congrArg _ (funext fun a => Fin.ext ?_)
  match a with
  | ⟨0, _⟩ => show win0_9.index t (0 : Fin 2) * 32 + q.val = win0_9.index t (0 : Fin 2) * 32 + 1 * q.val; omega
  | ⟨1, _⟩ => show win0_9.index t (1 : Fin 2) * 128 + p.val = win0_9.index t (1 : Fin 2) * 128 + 1 * p.val; omega

/-- An index of the output array is in point `t`'s tile iff each coordinate is in the tile's range on its axis. -/
theorem mem_blk (t : Fin cfg0.N) (i : S512x512.Idx) :
    i ∈ ((cfg0.win 9).blk t).view.set ↔ ∀ a : Fin 2, win0_9.index t a * S32x128.size a ≤ (i a).val
      ∧ (i a).val < win0_9.index t a * S32x128.size a + S32x128.size a := by
  show i ∈ ((View.whole main_v2).slice (win0_9.rect t)).set ↔ _
  rw [View.set_slice_whole, Rect.mem_set_unit]
  exact Iff.rfl

/-- The tiles cover the array: index `(r, s)` is in the tile of the point with block indices `(r / 32, s / 128)`. -/
theorem cover (i : S512x512.Idx) :
    ∃ t : Fin cfg0.N, (cfg0.win 9).flush t = true ∧ i ∈ ((cfg0.win 9).blk t).view.set := by
  have hi0 : (i 0).val < 512 := (i 0).isLt
  have hi1 : (i 1).val < 512 := (i 1).isLt
  obtain ⟨t, ht⟩ := idx_onto ⟨(i 0).val / 32, by omega⟩ ⟨(i 1).val / 128, by omega⟩
  have q0 : win0_9.index t (0 : Fin 2) = (i 0).val / 32 := congrFun ht 0
  have q1 : win0_9.index t (1 : Fin 2) = (i 1).val / 128 := congrFun ht 1
  refine ⟨t, flush0_9 t, ?_⟩
  rw [mem_blk]
  intro a
  match a with
  | ⟨0, _⟩ =>
    show win0_9.index t (0 : Fin 2) * 32 ≤ (i 0).val ∧ (i 0).val < win0_9.index t (0 : Fin 2) * 32 + 32
    omega
  | ⟨1, _⟩ =>
    show win0_9.index t (1 : Fin 2) * 128 ≤ (i 1).val ∧ (i 1).val < win0_9.index t (1 : Fin 2) * 128 + 128
    omega

/-- THE OUTPUT ARRAY after the run is the array of scores. -/
theorem final (c : Dev nD) : (dats m 0 c).arrAt 9 cfg0.N = G m c :=
  (dats m 0 c).arrAt_eq_of_cover 9 (G m c) (fun t _ => flushed_eq m c t) cover

/-- The constant the program writes after the launch. -/
theorem tail_cst (c : Dev nD) :
    Pipeline.afterTail₀ cfgs (dats m) 0 (V0 m) [hostOps1] c main_cst = constant (F := Ideal) S_ .f32 0x00000000#32 := by
  unfold Pipeline.afterTail₀
  show StableHlo.after hostOps1 _ (Proc.devRef .tc main_cst) = _
  after_results <;> rfl

/-! ## The run, read -/

/-- Every weakly fair execution of the kernel's program ends with the first result at the array of scores, the
    second at the zero constant, and the arguments as launched. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 9).trans (final m c),
      ((h c).2 main_cst (Pipeline.mem_restRefs_of main_cst (by decide) (by decide))).trans (tail_cst m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c)))⟩)
    (run_main m ρ)

end Cert.KernelIdeal.Scores

end
-- ==== Proof.lean ====
/-
  The certificate: a tiled kernel that scores every pair (row of `x`, row of `y`) with a three-layer network, against
  the same network written over whole arrays.

  Both programs compute, for row `j` of `x` and row `i` of `y`,

      Σ_g relu( Σ_h relu( (y_i · W₁ᵧ[h] + x_j · W₁ₓ[h]) + b₁[h] ) · W₂[g, h] + b₂[g] ) · W₃[0, g] + b₃[0]

  with the sums, products and maxima of the extended reals, in this order of operations on both sides; the kernel's
  narrowings to a shorter float format are the identity there.  So the two results agree entry by entry with no
  condition on the inputs: the precondition is never opened.  The kernel's side is read off its frame run tile by tile
  (Proof/KernelBody.lean: one tile; Proof/KernelScores.lean: the tiles cover the array); the reference's side is its
  run read stage by stage (Proof/RefScores.lean).  Both meet in one function of the argument arrays,
  `Cert.PairScore.scores` (Proof/PairScore.lean).  The second result of both programs is the constant zero.
  The idealized kernel is the kernel's own text read over the extended reals: there is nothing to preserve.
-/
import proofs.«107944_j62783831933329_1_alg».proof.Defs
import proofs.«107944_j62783831933329_1_alg».proof.Proof.Gen.Kernel
import proofs.«107944_j62783831933329_1_alg».proof.Proof.Gen.Kernel.Skeleton
import proofs.«107944_j62783831933329_1_alg».proof.Proof.Gen.Kernel.Launch
import proofs.«107944_j62783831933329_1_alg».proof.Proof.Gen.Kernel.Points
import proofs.«107944_j62783831933329_1_alg».proof.Proof.Gen.Kernel.Frame
import proofs.«107944_j62783831933329_1_alg».proof.Proof.Gen.KernelIdeal
import proofs.«107944_j62783831933329_1_alg».proof.Proof.Gen.KernelIdeal.Skeleton
import proofs.«107944_j62783831933329_1_alg».proof.Proof.Gen.KernelIdeal.Launch
import proofs.«107944_j62783831933329_1_alg».proof.Proof.Gen.KernelIdeal.Points
import proofs.«107944_j62783831933329_1_alg».proof.Proof.Gen.KernelIdeal.Frame
import proofs.«107944_j62783831933329_1_alg».proof.Proof.Gen.ReferenceIdeal
import proofs.«107944_j62783831933329_1_alg».proof.Proof.Gen.ReferenceIdeal.Run
import proofs.«107944_j62783831933329_1_alg».proof.Proof.Gen.ReferenceIdeal.Read
import proofs.«107944_j62783831933329_1_alg».proof.Proof.Gen.Pre_finite_inputs
import proofs.«107944_j62783831933329_1_alg».proof.Proof.RefScores
import proofs.«107944_j62783831933329_1_alg».proof.Proof.KernelScores
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Run from memories that agree on the arguments, both programs end with the array of pair scores of those arguments
    and with the zero constant. -/
theorem algebraic : Cert.algebraic_KernelIdeal_ReferenceIdeal := by
  intro m ρ m' ρ' _ hagree
  refine ⟨fun c => Cert.KernelIdeal.Scores.G m c,
    fun _ => constant (F := Ideal) Cert.KernelIdeal.S_ .f32 0x00000000#32, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Scores.result_eq_scores]
  obtain ⟨h0, h1, h2, h3, h4, h5, h6, h7⟩ := hagree c
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
